-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S256x512 .f32) (main_arg5 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1000x512 : Shape := ⟨2, ![1000, 512]⟩
abbrev S1x512 : Shape := ⟨2, ![1, 512]⟩
abbrev S1x256 : Shape := ⟨2, ![1, 256]⟩
abbrev S10000x256 : Shape := ⟨2, ![10000, 256]⟩
abbrev S200x10000 : Shape := ⟨2, ![200, 10000]⟩
abbrev S200x512 : Shape := ⟨2, ![200, 512]⟩
abbrev S200x256 : Shape := ⟨2, ![200, 256]⟩
abbrev S200 : Shape := ⟨1, ![200]⟩
abbrev S200x1 : Shape := ⟨2, ![200, 1]⟩

abbrev nBuf : Space → Nat
  | .hbm => 11
  | .vmem => 15
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S10000x512, .bf16⟩
  | .hbm, ⟨7, _⟩ => ⟨S1x512, .f32⟩
  | .hbm, ⟨8, _⟩ => ⟨S1x256, .f32⟩
  | .hbm, ⟨9, _⟩ => ⟨S10000x512, .f32⟩
  | .hbm, ⟨10, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .bf16⟩
  | .local _ .vmem, ⟨4, _⟩ => ⟨S1000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S1x512, .f32⟩
  | .local _ .vmem, ⟨9, _⟩ => ⟨S256x512, .f32⟩
  | .local _ .vmem, ⟨10, _⟩ => ⟨S1x256, .f32⟩
  | .local _ .vmem, ⟨11, _⟩ => ⟨S200x512, .f32⟩
  | .local _ .vmem, ⟨12, _⟩ => ⟨S200x512, .f32⟩
  | .local _ .vmem, ⟨13, _⟩ => ⟨S200x256, .f32⟩
  | .local _ .vmem, ⟨14, _⟩ => ⟨S200x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1000x512_S1000x512_0_0 : (Rect.unit (s := S1000x512) ![0, 0] S1000x512.size inb_S1000x512_S1000x512_0_0).PackedRows (EltTy.packing .bf16)
  shapeCasts_S512_S1x512 : S512.ShapeCasts S1x512
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S200x512_S200x512_0_0 : ∀ a, (![0, 0] : Fin 2 → Nat) a + S200x512.size a ≤ S200x512.size a
  h_S200x512 : 0 < S200x512.numel
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  reduces_S200x256_S200 : S200x256.Reduces [1] S200
  shapeCasts_S200_S200x1 : S200.ShapeCasts S200x1
  broadcasts_S200x1_S200x256 : S200x1.Broadcasts S200x256
  inb_S200x256_S200x256_0_0 : ∀ a, (![0, 0] : Fin 2 → Nat) a + S200x256.size a ≤ S200x256.size a
  h_S200x256 : 0 < S200x256.numel
  dot_S1000x512_S512x512_S1000x512_1_0_0_1_n_n_wf : DotDims.WF S1000x512 S512x512 S1000x512 [1] [0] [0] [1] [] []
  dot_S200x10000_S10000x512_S200x512_1_0_0_1_n_n_wf : DotDims.WF S200x10000 S10000x512 S200x512 [1] [0] [0] [1] [] []
  dot_S200x512_S256x512_S200x256_1_1_0_0_n_n_wf : DotDims.WF S200x512 S256x512 S200x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x512.size a ≤ S10000x512.size a
  hwx1_5 : ∀ i : grid1.Coords, EltTy.bits .f32 = 32 ∨ (Rect.block (s := S10000x512) S200x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x256.size a ≤ S10000x256.size a
  hwx1_6 : ∀ i : grid1.Coords, EltTy.bits .f32 = 32 ∨ (Rect.block (s := S10000x256) S200x256.size (cc1_transform_6 i) (hinb1_6 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S256x512_S200x256_1_1_0_0_n_n : DotDims S200x512 S256x512 S200x256 where
  lhsContracting := [1]
  rhsContracting := [1]
  lhsNonContracting := [0]
  rhsNonContracting := [0]
  lhsBatch := []
  rhsBatch := []
  wf := dot_S200x512_S256x512_S200x256_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S200x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S200x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x512 : Shape := ⟨2, ![1, 512]⟩
abbrev S_ : Shape := ⟨0, ![]⟩
abbrev S512x256 : Shape := ⟨2, ![512, 256]⟩
abbrev S10000x256 : Shape := ⟨2, ![10000, 256]⟩
abbrev S1x256 : Shape := ⟨2, ![1, 256]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S512x256, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x256_S10000x256_1_0_0_1_n_n_wf : DotDims.WF S10000x512 S512x256 S10000x256 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Spec.lean ====
/-
  One graph-convolution layer followed by a row softmax, entry by entry on the extended reals.

  With `x` the node features, `adj` the adjacency weights, `w1`, `b1` the layer's weight and bias and `w2`, `b2` the
  classifier's, the two results are

    hidden = relu (adj · (x · w1) + b1)            out = softmax (hidden · w2ᵀ + b2)   (row by row)

  Every operation is written for arbitrary extents, because the same operation is applied once to a whole array and
  once to a block of its rows. All of them act on one row at a time (the left factor of a product, a bias added to
  every row, relu, the softmax of a row), so an entry in row `p` of the block's result is the entry in row `r` of the
  array's result as soon as row `p` of the block is row `r` of the array: the `_row` lemmas.
-/
import Idealize.ShloMosaic.PureOps.Ideal.Laws
import Idealize.ShloMosaic.Lib.ValueIdx

noncomputable section

open scoped BigOperators

namespace Cert.Gcn

open Idealize.ShloMosaic Idealize.ShloMosaic.ValueIdx

/-- An `a × b` array of extended reals, and a vector of `b` of them. -/
abbrev Mat (a b : ℕ) : Type := (⟨2, ![a, b]⟩ : Shape).Idx → EReal
abbrev Row (b : ℕ) : Type := (⟨1, ![b]⟩ : Shape).Idx → EReal

/-- An array given by its entries. -/
def ofEntries {a b : ℕ} (f : Fin a → Fin b → EReal) : Mat a b := fun i => f (i 0) (i 1)

theorem ofEntries_ix2 {a b : ℕ} (f : Fin a → Fin b → EReal) (p : Fin a) (q : Fin b) :
    ofEntries f (ix2 p q) = f p q := rfl

/-- The matrix product: entry `(r, c)` is `Σ_k x[r, k] · w[k, c]`. -/
def prod {a n b : ℕ} (x : Mat a n) (w : Mat n b) : Mat a b :=
  ofEntries fun r c => ∑ k : Fin n, x (ix2 r k) * w (ix2 k c)

/-- The product with the second factor transposed: entry `(r, c)` is `Σ_k x[r, k] · w[c, k]`. -/
def prodT {a n b : ℕ} (x : Mat a n) (w : Mat b n) : Mat a b :=
  ofEntries fun r c => ∑ k : Fin n, x (ix2 r k) * w (ix2 c k)

/-- A bias vector added to every row. -/
def addRow {a b : ℕ} (x : Mat a b) (v : Row b) : Mat a b :=
  ofEntries fun r c => x (ix2 r c) + v (ix1 c)

/-- The positive part, entry by entry (the zero is kept as the word both programs write). -/
def relu {a b : ℕ} (x : Mat a b) : Mat a b :=
  ofEntries fun r c => max (x (ix2 r c)) (Ideal.ofBits .f32 0x00000000#32)

/-- The largest entry of row `r`, folded from minus infinity (kept as the word both programs write). -/
def rowMax {a b : ℕ} (x : Mat a b) (r : Fin a) : EReal :=
  (Finset.univ : Finset (Fin b)).fold max (Ideal.ofBits .f32 0xFF800000#32) (fun k => x (ix2 r k))

/-- The softmax of every row: `exp (x[r, c] − max_r) / Σ_k exp (x[r, k] − max_r)`. -/
def softmax {a b : ℕ} (x : Mat a b) : Mat a b :=
  ofEntries fun r c =>
    Ideal.div (Ideal.exp (x (ix2 r c) - rowMax x r)) (∑ k : Fin b, Ideal.exp (x (ix2 r k) - rowMax x r))

/-- A one-row array read as a vector. -/
def rowOf {b : ℕ} (v : Mat 1 b) : Row b := fun j => v (ix2 (0 : Fin 1) (j 0))

theorem rowOf_ix1 {b : ℕ} (v : Mat 1 b) (c : Fin b) : rowOf v (ix1 c) = v (ix2 (0 : Fin 1) c) := rfl

/-- The hidden layer `relu (adj · (x · w1) + b1)`. -/
def hidden {N d h : ℕ} (x : Mat N d) (adj : Mat N N) (w1 : Mat d h) (b1 : Row h) : Mat N h :=
  relu (addRow (prod adj (prod x w1)) b1)

/-- The class probabilities `softmax (g · w2ᵀ + b2)` of a hidden layer `g`. -/
def classify {N h k : ℕ} (g : Mat N h) (w2 : Mat k h) (b2 : Row k) : Mat N k :=
  softmax (addRow (prodT g w2) b2)

/-! ## Every operation acts row by row -/

section Rows
variable {a a' n b : ℕ}

theorem prod_row (x : Mat a n) (y : Mat a' n) (w : Mat n b) (p : Fin a) (r : Fin a')
    (h : ∀ k, x (ix2 p k) = y (ix2 r k)) (c : Fin b) : prod x w (ix2 p c) = prod y w (ix2 r c) := by
  show (∑ k : Fin n, x (ix2 p k) * w (ix2 k c)) = ∑ k : Fin n, y (ix2 r k) * w (ix2 k c)
  exact Finset.sum_congr rfl fun k _ => by rw [h k]

theorem prodT_row (x : Mat a n) (y : Mat a' n) (w : Mat b n) (p : Fin a) (r : Fin a')
    (h : ∀ k, x (ix2 p k) = y (ix2 r k)) (c : Fin b) : prodT x w (ix2 p c) = prodT y w (ix2 r c) := by
  show (∑ k : Fin n, x (ix2 p k) * w (ix2 c k)) = ∑ k : Fin n, y (ix2 r k) * w (ix2 c k)
  exact Finset.sum_congr rfl fun k _ => by rw [h k]

theorem addRow_row (x : Mat a b) (y : Mat a' b) (v : Row b) (p : Fin a) (r : Fin a')
    (h : ∀ c, x (ix2 p c) = y (ix2 r c)) (c : Fin b) : addRow x v (ix2 p c) = addRow y v (ix2 r c) := by
  show x (ix2 p c) + v (ix1 c) = y (ix2 r c) + v (ix1 c)
  rw [h c]

theorem relu_row (x : Mat a b) (y : Mat a' b) (p : Fin a) (r : Fin a')
    (h : ∀ c, x (ix2 p c) = y (ix2 r c)) (c : Fin b) : relu x (ix2 p c) = relu y (ix2 r c) := by
  show max (x (ix2 p c)) _ = max (y (ix2 r c)) _
  rw [h c]

theorem rowMax_row (x : Mat a b) (y : Mat a' b) (p : Fin a) (r : Fin a')
    (h : ∀ c, x (ix2 p c) = y (ix2 r c)) : rowMax x p = rowMax y r := by
  unfold rowMax
  rw [show (fun k => x (ix2 p k)) = fun k => y (ix2 r k) from funext h]

theorem softmax_row (x : Mat a b) (y : Mat a' b) (p : Fin a) (r : Fin a')
    (h : ∀ c, x (ix2 p c) = y (ix2 r c)) (c : Fin b) : softmax x (ix2 p c) = softmax y (ix2 r c) := by
  show Ideal.div (Ideal.exp (x (ix2 p c) - rowMax x p)) (∑ k : Fin b, Ideal.exp (x (ix2 p k) - rowMax x p))
    = Ideal.div (Ideal.exp (y (ix2 r c) - rowMax y r)) (∑ k : Fin b, Ideal.exp (y (ix2 r k) - rowMax y r))
  rw [rowMax_row x y p r h, h c]
  exact congrArg _ (Finset.sum_congr rfl fun k _ => by rw [h k])

end Rows

end Cert.Gcn

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.LibRowMax.lean ====
/-
  A row's maximum read as a fold over the row's entries.

  The companion of the lane sum read as a finite sum: a float `multi_reduction <maximumf>` over axis 1 of an `[a, d]`
  block, from the neutral accumulator, is at row `i` the fold of `max` over the `d` entries `(i, k)` of that row,
  starting from the accumulator's value. Generic in the extents and in the element type, stated for indices built by
  `ix1` / `ix2` so that it applies to a printed operation by unification.
-/
import Idealize.ShloMosaic.Lib.ValueIdx
import Idealize.ShloMosaic.PureOps.Ideal.Laws

namespace Cert.Lib.RowMax

open Idealize.ShloMosaic Idealize.ShloMosaic.ValueIdx

/-- The maximum along the rows of an `[a, d]` block, read on the extended reals at row `i`: the fold of `max` from the
    accumulator's value over the row's `d` entries. -/
theorem rowMax_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin d)).fold max (FloatOps.ofBits φ acc) (fun k => src (ix2 i k)) :=
  (Ideal.multiReduction_maximumf_single src acc h hφ hacc (ix1 i)).trans
    (congrArg (fun f => Finset.fold max (FloatOps.ofBits φ acc) f (Finset.univ : Finset (Fin d)))
      (funext fun k => congrArg src (funext fun c => Fin.ext (by
        match c with
        | ⟨0, _⟩ => rfl
        | ⟨1, _⟩ => rfl))))

end Cert.Lib.RowMax
-- ==== Proof.Dots.lean ====
/-
  The three matrix products of the two kernel bodies, each read at an entry `(p, q)` on the extended reals: a product
  accumulated into zero is the finite sum of the factors' products over the contracted coordinate. The first two
  contract the left factor's columns with the right factor's rows; the third contracts columns with columns (the right
  factor is used transposed). The operand index of each axis is read off the dimension numbers once, per axis.
-/
import proofs.«101675_g65816078844311_cont_sun_m_909_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ## x · w1 on a block of 1000 rows -/

theorem lhs_xw_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_xw_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_xw_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_xw_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl
/-- The product into a zero accumulator, at `(p, q)`: the sum over the 512 contracted coordinates. -/
theorem xw_apply {φ₁ φ₂ : FTy} (l : FVec Ideal S1000x512 φ₁) (r : FVec Ideal S512x512 φ₂) (p : Fin 1000) (q : Fin 512) :
    matmul (F := Ideal) dot_S1000x512_S512x512_S1000x512_1_0_0_1_n_n none l r (constant S1000x512 .f32 0x00000000#32) (ix2 p q)
      = ∑ k : Fin 512, l (ix2 p k) * r (ix2 k q) := by
  simp only [matmul]
  rw [Ideal.matmul_constant_zero_apply, ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p q) ((ValueIdx.contrEquiv1 dot_S1000x512_S512x512_S1000x512_1_0_0_1_n_n 512 rfl rfl).symm k) = ix2 p k := funext fun a => Fin.ext (by
    match a with
    | ⟨0, _⟩ => exact lhs_xw_0 _ _
    | ⟨1, _⟩ => exact (lhs_xw_1 _ _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q := funext fun a => Fin.ext (by
    match a with
    | ⟨0, _⟩ => exact (rhs_xw_0 _ _).trans hk
    | ⟨1, _⟩ => exact rhs_xw_1 _ _)
  rw [el, er]

/-! ## adj · support on a block of 200 rows -/

theorem lhs_as_0 (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
theorem lhs_as_1 (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
theorem rhs_as_0 (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
theorem rhs_as_1 (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl
/-- The product into a zero accumulator, at `(p, q)`: the sum over the 10000 contracted coordinates. -/
theorem as_apply {φ₁ φ₂ : FTy} (l : FVec Ideal S200x10000 φ₁) (r : FVec Ideal S10000x512 φ₂) (p : Fin 200) (q : Fin 512) :
    matmul (F := Ideal) dot_S200x10000_S10000x512_S200x512_1_0_0_1_n_n none l r (constant S200x512 .f32 0x00000000#32) (ix2 p q)
      = ∑ k : Fin 10000, l (ix2 p k) * r (ix2 k q) := by
  simp only [matmul]
  rw [Ideal.matmul_constant_zero_apply, ← Equiv.sum_comp (ValueIdx.contrEquiv1 dot_S200x10000_S10000x512_S200x512_1_0_0_1_n_n 10000 rfl rfl).symm]
  refine Finset.sum_congr rfl fun k _ => ?_
  have hk := ValueIdx.contrEquiv1_symm_val dot_S200x10000_S10000x512_S200x512_1_0_0_1_n_n 10000 rfl rfl k
  have el : dot_S200x10000_S10000x512_S200x512_1_0_0_1_n_n.lhsIdx (ix2 p q) ((ValueIdx.contrEquiv1 dot_S200x10000_S10000x512_S200x512_1_0_0_1_n_n 10000 rfl rfl).symm k) = ix2 p k := funext fun a => Fin.ext (by
    match a with
    | ⟨0, _⟩ => exact lhs_as_0 _ _
    | ⟨1, _⟩ => exact (lhs_as_1 _ _).trans hk)
  have er : dot_S200x10000_S10000x512_S200x512_1_0_0_1_n_n.rhsIdx (ix2 p q) ((ValueIdx.contrEquiv1 dot_S200x10000_S10000x512_S200x512_1_0_0_1_n_n 10000 rfl rfl).symm k) = ix2 k q := funext fun a => Fin.ext (by
    match a with
    | ⟨0, _⟩ => exact (rhs_as_0 _ _).trans hk
    | ⟨1, _⟩ => exact rhs_as_1 _ _)
  rw [el, er]

/-! ## hidden · w2ᵀ on a block of 200 rows -/

theorem lhs_gw_0 (i : S200x256.Idx) (q : dot_S200x512_S256x512_S200x256_1_1_0_0_n_n.contr.Idx) :
    (dot_S200x512_S256x512_S200x256_1_1_0_0_n_n.lhsIdx i q 0).val = (i 0).val := by
  unfold DotDims.lhsIdx
  rw [dif_neg (show ¬(0 : Fin S200x512.rank) ∈ dot_S200x512_S256x512_S200x256_1_1_0_0_n_n.lhsBatch by decide), dif_pos (show (0 : Fin S200x512.rank) ∈ dot_S200x512_S256x512_S200x256_1_1_0_0_n_n.lhsNonContracting by decide)]
  rfl
theorem lhs_gw_1 (i : S200x256.Idx) (q : dot_S200x512_S256x512_S200x256_1_1_0_0_n_n.contr.Idx) :
    (dot_S200x512_S256x512_S200x256_1_1_0_0_n_n.lhsIdx i q 1).val = (q ⟨0, by decide⟩).val :=
  dot_S200x512_S256x512_S200x256_1_1_0_0_n_n.lhsIdx_val_of_single rfl i q
theorem rhs_gw_0 (i : S200x256.Idx) (q : dot_S200x512_S256x512_S200x256_1_1_0_0_n_n.contr.Idx) :
    (dot_S200x512_S256x512_S200x256_1_1_0_0_n_n.rhsIdx i q 0).val = (i 1).val := by
  unfold DotDims.rhsIdx
  rw [dif_neg (show ¬(0 : Fin S256x512.rank) ∈ dot_S200x512_S256x512_S200x256_1_1_0_0_n_n.rhsBatch by decide), dif_pos (show (0 : Fin S256x512.rank) ∈ dot_S200x512_S256x512_S200x256_1_1_0_0_n_n.rhsNonContracting by decide)]
  rfl
theorem rhs_gw_1 (i : S200x256.Idx) (q : dot_S200x512_S256x512_S200x256_1_1_0_0_n_n.contr.Idx) :
    (dot_S200x512_S256x512_S200x256_1_1_0_0_n_n.rhsIdx i q 1).val = (q ⟨0, by decide⟩).val :=
  dot_S200x512_S256x512_S200x256_1_1_0_0_n_n.rhsIdx_val_of_single rfl i q
/-- The product with the second factor's rows contracted into a zero accumulator, at `(p, q)`: the sum over the 512 contracted coordinates. -/
theorem gw_apply {φ₁ φ₂ : FTy} (l : FVec Ideal S200x512 φ₁) (r : FVec Ideal S256x512 φ₂) (p : Fin 200) (q : Fin 256) :
    matmul (F := Ideal) dot_S200x512_S256x512_S200x256_1_1_0_0_n_n none l r (constant S200x256 .f32 0x00000000#32) (ix2 p q)
      = ∑ k : Fin 512, l (ix2 p k) * r (ix2 q k) := by
  simp only [matmul]
  rw [Ideal.matmul_constant_zero_apply, ← Equiv.sum_comp (ValueIdx.contrEquiv1 dot_S200x512_S256x512_S200x256_1_1_0_0_n_n 512 rfl rfl).symm]
  refine Finset.sum_congr rfl fun k _ => ?_
  have hk := ValueIdx.contrEquiv1_symm_val dot_S200x512_S256x512_S200x256_1_1_0_0_n_n 512 rfl rfl k
  have el : dot_S200x512_S256x512_S200x256_1_1_0_0_n_n.lhsIdx (ix2 p q) ((ValueIdx.contrEquiv1 dot_S200x512_S256x512_S200x256_1_1_0_0_n_n 512 rfl rfl).symm k) = ix2 p k := funext fun a => Fin.ext (by
    match a with
    | ⟨0, _⟩ => exact lhs_gw_0 _ _
    | ⟨1, _⟩ => exact (lhs_gw_1 _ _).trans hk)
  have er : dot_S200x512_S256x512_S200x256_1_1_0_0_n_n.rhsIdx (ix2 p q) ((ValueIdx.contrEquiv1 dot_S200x512_S256x512_S200x256_1_1_0_0_n_n 512 rfl rfl).symm k) = ix2 q k := funext fun a => Fin.ext (by
    match a with
    | ⟨0, _⟩ => exact rhs_gw_0 _ _
    | ⟨1, _⟩ => exact (rhs_gw_1 _ _).trans hk)
  rw [el, er]

end Cert.KernelIdeal.Dots

end
-- ==== Proof.Payload.lean ====
/-
  What the two kernel bodies compute, block by block, on the extended reals.

  The first body stores `x_blk · w1` for a block of 1000 rows of `x`. The second, for a block of 200 rows of `adj`,
  stores `relu (adj_blk · support + b1)` and the row softmax of `that · w2ᵀ + b2`. Changing the float format is the
  identity on the extended reals, a cast to the same shape changes nothing, a one-row bias broadcast down the block is
  the bias added to every row, and the softmax's two row reductions, kept as columns and broadcast back along the rows,
  are the row's maximum and the row's sum of exponentials.
-/
import proofs.«101675_g65816078844311_cont_sun_m_909_2_alg».proof.Proof.Gen.KernelIdeal.Skeleton
import proofs.«101675_g65816078844311_cont_sun_m_909_2_alg».proof.Proof.Spec
import proofs.«101675_g65816078844311_cont_sun_m_909_2_alg».proof.Proof.LibColumn
import proofs.«101675_g65816078844311_cont_sun_m_909_2_alg».proof.Proof.LibRowMax
import proofs.«101675_g65816078844311_cont_sun_m_909_2_alg».proof.Proof.Dots
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Gcn Cert.Lib

/-! ## The softmax of a block of 200 rows of logits -/

/-- Each row's maximum, broadcast back along the row. -/
abbrev maxCols (L : FVec Ideal S200x256 .f32) : FVec Ideal S200x256 .f32 :=
  broadcastTo S200x256 (shapeCast S200x1 (multiReduction .maximumf [1] S200 L 0xFF800000#32 reduces_S200x256_S200 (.inl rfl) rfl) shapeCasts_S200_S200x1) broadcasts_S200x1_S200x256

/-- The exponentials of the logits less their row's maximum. -/
abbrev expCols (L : FVec Ideal S200x256 .f32) : FVec Ideal S200x256 .f32 := exp (subf L (maxCols L))

/-- Each row's sum of those exponentials, broadcast back along the row. -/
abbrev sumCols (L : FVec Ideal S200x256 .f32) : FVec Ideal S200x256 .f32 :=
  broadcastTo S200x256 (shapeCast S200x1 (multiReduction .add [1] S200 (expCols L) 0x00000000#32 reduces_S200x256_S200 (.inl rfl) rfl) shapeCasts_S200_S200x1) broadcasts_S200x1_S200x256

theorem maxCols_apply (L : FVec Ideal S200x256 .f32) (p : Fin 200) (q : Fin 256) : maxCols L (ix2 p q) = rowMax L p :=
  (Column.broadcastTo_a1_ab_apply _ broadcasts_S200x1_S200x256 p q).trans
    ((Column.shapeCast_a_a1_apply _ shapeCasts_S200_S200x1 p 0).trans
      (RowMax.rowMax_apply L 0xFF800000#32 reduces_S200x256_S200 (.inl rfl) rfl p))

theorem expCols_apply (L : FVec Ideal S200x256 .f32) (p : Fin 200) (q : Fin 256) :
    expCols L (ix2 p q) = Ideal.exp (L (ix2 p q) - rowMax L p) := by
  show Ideal.exp (L (ix2 p q) - maxCols L (ix2 p q)) = _
  rw [maxCols_apply]

theorem sumCols_apply (L : FVec Ideal S200x256 .f32) (p : Fin 200) (q : Fin 256) :
    sumCols L (ix2 p q) = ∑ k : Fin 256, Ideal.exp (L (ix2 p k) - rowMax L p) :=
  (Column.broadcastTo_a1_ab_apply _ broadcasts_S200x1_S200x256 p q).trans
    ((Column.shapeCast_a_a1_apply _ shapeCasts_S200_S200x1 p 0).trans
      ((Column.rowSum_apply (expCols L) 0x00000000#32 reduces_S200x256_S200 (.inl rfl) rfl p).trans
        (Finset.sum_congr rfl fun k _ => expCols_apply L p k)))

/-- The body's last seven operations on a block of logits are the softmax of its rows. -/
theorem softmax_block (L : FVec Ideal S200x256 .f32) : divf (expCols L) (sumCols L) = softmax L := by
  funext j
  obtain ⟨p, q, rfl⟩ : ∃ (p : Fin 200) (q : Fin 256), j = ix2 p q := ⟨j 0, j 1, eq_ix2 j⟩
  show Ideal.div (expCols L (ix2 p q)) (sumCols L (ix2 p q)) = _
  rw [expCols_apply, sumCols_apply]
  rfl

/-! ## The three stored values -/

/-- The first body stores the product of its block of `x` with `w1`. -/
theorem pay_support (X : FVec Ideal S1000x512 .f32) (W : FVec Ideal S512x512 .f32) :
    k0_pay1 (F := Ideal) X W = prod X W := by
  funext j
  obtain ⟨p, q, rfl⟩ : ∃ (p : Fin 1000) (q : Fin 512), j = ix2 p q := ⟨j 0, j 1, eq_ix2 j⟩
  unfold k0_pay1
  exact Dots.xw_apply (truncf .bf16 X bitsLt_bf16_f32) (truncf .bf16 W bitsLt_bf16_f32) p q

/-- The second body's first store: `relu (adj_blk · support + b1)`. -/
theorem pay_hidden (A : FVec Ideal S200x10000 .f32) (S : FVec Ideal S10000x512 .bf16) (B : FVec Ideal S1x512 .f32) :
    k1_pay1 (F := Ideal) A S B = relu (addRow (prod A S) (rowOf B)) := by
  funext j
  obtain ⟨p, q, rfl⟩ : ∃ (p : Fin 200) (q : Fin 512), j = ix2 p q := ⟨j 0, j 1, eq_ix2 j⟩
  unfold k1_pay1
  show max (matmul (F := Ideal) dot_S200x10000_S10000x512_S200x512_1_0_0_1_n_n none (truncf .bf16 A bitsLt_bf16_f32) (shapeCast S10000x512 S shapeCasts_S10000x512_S10000x512) (constant S200x512 .f32 0x00000000#32) (ix2 p q)
      + broadcastTo S200x512 (shapeCast S1x512 B shapeCasts_S1x512_S1x512) broadcasts_S1x512_S200x512 (ix2 p q)) (Ideal.ofBits .f32 0x00000000#32) = _
  rw [Dots.as_apply, shapeCast_self, shapeCast_self, broadcastTo_1b_ab_apply]
  rfl

/-- The logits of a block: `g_blk · w2ᵀ + b2`. -/
theorem logits_block (G : FVec Ideal S200x512 .f32) (W2 : FVec Ideal S256x512 .f32) (B2 : FVec Ideal S1x256 .f32) :
    addf (matmul (F := Ideal) dot_S200x512_S256x512_S200x256_1_1_0_0_n_n none (truncf .bf16 G bitsLt_bf16_f32) (truncf .bf16 W2 bitsLt_bf16_f32) (constant S200x256 .f32 0x00000000#32))
      (broadcastTo S200x256 (shapeCast S1x256 B2 shapeCasts_S1x256_S1x256) broadcasts_S1x256_S200x256)
    = addRow (prodT G W2) (rowOf B2) := by
  funext j
  obtain ⟨p, q, rfl⟩ : ∃ (p : Fin 200) (q : Fin 256), j = ix2 p q := ⟨j 0, j 1, eq_ix2 j⟩
  show matmul (F := Ideal) dot_S200x512_S256x512_S200x256_1_1_0_0_n_n none (truncf .bf16 G bitsLt_bf16_f32) (truncf .bf16 W2 bitsLt_bf16_f32) (constant S200x256 .f32 0x00000000#32) (ix2 p q)
      + broadcastTo S200x256 (shapeCast S1x256 B2 shapeCasts_S1x256_S1x256) broadcasts_S1x256_S200x256 (ix2 p q) = _
  rw [Dots.gw_apply, shapeCast_self, broadcastTo_1b_ab_apply]
  rfl

/-- The second body's second store: the row softmax of `hidden_blk · w2ᵀ + b2`. -/
theorem pay_out (A : FVec Ideal S200x10000 .f32) (S : FVec Ideal S10000x512 .bf16) (B : FVec Ideal S1x512 .f32)
    (W2 : FVec Ideal S256x512 .f32) (B2 : FVec Ideal S1x256 .f32) :
    k1_pay2 (F := Ideal) A S B W2 B2 = softmax (addRow (prodT (k1_pay1 (F := Ideal) A S B) W2) (rowOf B2)) := by
  unfold k1_pay2
  exact (softmax_block _).trans (congrArg softmax (logits_block (k1_pay1 (F := Ideal) A S B) W2 B2))

end Cert.KernelIdeal.Payload

end
-- ==== Proof.Region1.lean ====
/-
  The second region: what it leaves in the two result arrays.

  The grid has fifty points; point `t` reads rows `200 t … 200 t + 199` of `adj`, and all of the support array, the two
  one-row biases and `w2`, and writes back the same rows of both results. Every operation of the body acts on one row
  at a time, so row `p` of a block written at point `t` is row `200 t + p` of the whole-array result, and the fifty
  blocks tile each array — for whatever contents the region is entered at.
-/
import proofs.«101675_g65816078844311_cont_sun_m_909_2_alg».proof.Proof.Gen.KernelIdeal.Frame
import proofs.«101675_g65816078844311_cont_sun_m_909_2_alg».proof.Proof.Payload
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices that move with the point: the rows of `adj` and of the two results. -/
theorem idx_rows : ∀ t : Fin cfg1.N, win1_0.index t (0 : Fin 2) = t.val ∧ win1_0.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The four windows read whole at every point. -/
theorem idx_whole : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem lt_N (t : Fin cfg1.N) : t.val < 50 := by
  have h := t.isLt
  have e : cfg1.N = 50 := N_1
  omega

/-- The array row that row `p` of point `t`'s block is. -/
def row (t : Fin cfg1.N) (p : Fin 200) : Fin 10000 := ⟨t.val * 200 + p.val, by have := lt_N t; have := p.isLt; omega⟩

/-- The arrays the region reads, as it finds them, and what it computes of them. -/
abbrev adjArr (c : Dev nD) : Mat 10000 10000 := V c main_arg1
abbrev supArr (c : Dev nD) : Mat 10000 512 := V c main_v0
abbrev b1Arr (c : Dev nD) : Mat 1 512 := V c main_v1
abbrev w2Arr (c : Dev nD) : Mat 256 512 := V c main_arg4
abbrev b2Arr (c : Dev nD) : Mat 1 256 := V c main_v2
abbrev hiddenArr (c : Dev nD) : Mat 10000 512 := relu (addRow (prod (adjArr V c) (supArr V c)) (rowOf (b1Arr V c)))
abbrev outArr (c : Dev nD) : Mat 10000 256 := softmax (addRow (prodT (hiddenArr V c) (w2Arr V c)) (rowOf (b2Arr V c)))

/-- Point `t`'s block of `adj`, by rows. -/
theorem iblk_adj (c : Dev nD) (t : Fin cfg1.N) (p : Fin 200) (k : Fin 10000) :
    (iblk1 V c 0 t : Mat 200 10000) (ix2 p k) = adjArr V c (ix2 (row t p) k) := by
  unfold iblk1
  rw [View.read_apply]
  show V c main_arg1 _ = V c main_arg1 _
  refine congrArg (V c main_arg1) (funext fun a => Fin.ext ?_)
  obtain ⟨e0, e1, -⟩ := idx_rows t
  match a with
  | ⟨0, _⟩ => show win1_0.index t (0 : Fin 2) * 200 + 1 * p.val = t.val * 200 + p.val; omega
  | ⟨1, _⟩ => show win1_0.index t (1 : Fin 2) * 10000 + 1 * k.val = k.val; omega

/-- Every point's block of the support array is all of it. -/
theorem iblk_sup (c : Dev nD) (t : Fin cfg1.N) : (iblk1 V c 1 t : Mat 10000 512) = (V c main_v0 : Mat 10000 512) := by
  funext y
  obtain ⟨k, q, rfl⟩ : ∃ (k : Fin 10000) (q : Fin 512), y = ix2 k q := ⟨y 0, y 1, eq_ix2 y⟩
  unfold iblk1
  rw [View.read_apply]
  show V c main_v0 _ = V c main_v0 _
  refine congrArg (V c main_v0) (funext fun a => Fin.ext ?_)
  have e := idx_whole t
  match a with
  | ⟨0, _⟩ => show win1_1.index t (0 : Fin 2) * 10000 + 1 * k.val = k.val; omega
  | ⟨1, _⟩ => show win1_1.index t (1 : Fin 2) * 512 + 1 * q.val = q.val; omega

/-- Every point's block of the first bias row is all of it. -/
theorem iblk_b1 (c : Dev nD) (t : Fin cfg1.N) : (iblk1 V c 2 t : Mat 1 512) = (V c main_v1 : Mat 1 512) := by
  funext y
  obtain ⟨k, q, rfl⟩ : ∃ (k : Fin 1) (q : Fin 512), y = ix2 k q := ⟨y 0, y 1, eq_ix2 y⟩
  unfold iblk1
  rw [View.read_apply]
  show V c main_v1 _ = V c main_v1 _
  refine congrArg (V c main_v1) (funext fun a => Fin.ext ?_)
  have e := idx_whole t
  match a with
  | ⟨0, _⟩ => show win1_2.index t (0 : Fin 2) * 1 + 1 * k.val = k.val; omega
  | ⟨1, _⟩ => show win1_2.index t (1 : Fin 2) * 512 + 1 * q.val = q.val; omega

/-- Every point's block of `w2` is all of it. -/
theorem iblk_w2 (c : Dev nD) (t : Fin cfg1.N) : (iblk1 V c 3 t : Mat 256 512) = (V c main_arg4 : Mat 256 512) := by
  funext y
  obtain ⟨k, q, rfl⟩ : ∃ (k : Fin 256) (q : Fin 512), y = ix2 k q := ⟨y 0, y 1, eq_ix2 y⟩
  unfold iblk1
  rw [View.read_apply]
  show V c main_arg4 _ = V c main_arg4 _
  refine congrArg (V c main_arg4) (funext fun a => Fin.ext ?_)
  have e := idx_whole t
  match a with
  | ⟨0, _⟩ => show win1_3.index t (0 : Fin 2) * 256 + 1 * k.val = k.val; omega
  | ⟨1, _⟩ => show win1_3.index t (1 : Fin 2) * 512 + 1 * q.val = q.val; omega

/-- Every point's block of the second bias row is all of it. -/
theorem iblk_b2 (c : Dev nD) (t : Fin cfg1.N) : (iblk1 V c 4 t : Mat 1 256) = (V c main_v2 : Mat 1 256) := by
  funext y
  obtain ⟨k, q, rfl⟩ : ∃ (k : Fin 1) (q : Fin 256), y = ix2 k q := ⟨y 0, y 1, eq_ix2 y⟩
  unfold iblk1
  rw [View.read_apply]
  show V c main_v2 _ = V c main_v2 _
  refine congrArg (V c main_v2) (funext fun a => Fin.ext ?_)
  have e := idx_whole t
  match a with
  | ⟨0, _⟩ => show win1_4.index t (0 : Fin 2) * 1 + 1 * k.val = k.val; omega
  | ⟨1, _⟩ => show win1_4.index t (1 : Fin 2) * 256 + 1 * q.val = q.val; omega

/-- Where entry `(p, q)` of point `t`'s block of the first result lies in the array. -/
theorem emb_hidden (t : Fin cfg1.N) (p : Fin 200) (q : Fin 512) :
    ((cfg1.win 5).blk t).view.emb (ix2 p q) = (ix2 (row t p) q : S10000x512.Idx) := by
  funext a
  apply Fin.ext
  obtain ⟨-, -, e2, e3, -⟩ := idx_rows t
  match a with
  | ⟨0, _⟩ => show win1_5.index t (0 : Fin 2) * 200 + 1 * p.val = t.val * 200 + p.val; omega
  | ⟨1, _⟩ => show win1_5.index t (1 : Fin 2) * 512 + 1 * q.val = q.val; omega

/-- Where entry `(p, q)` of point `t`'s block of the second result lies in the array. -/
theorem emb_out (t : Fin cfg1.N) (p : Fin 200) (q : Fin 256) :
    ((cfg1.win 6).blk t).view.emb (ix2 p q) = (ix2 (row t p) q : S10000x256.Idx) := by
  funext a
  apply Fin.ext
  obtain ⟨-, -, -, -, e4, e5⟩ := idx_rows t
  match a with
  | ⟨0, _⟩ => show win1_6.index t (0 : Fin 2) * 200 + 1 * p.val = t.val * 200 + p.val; omega
  | ⟨1, _⟩ => show win1_6.index t (1 : Fin 2) * 256 + 1 * q.val = q.val; omega

/-- Row `p` of the hidden block computed at point `t` is row `200 t + p` of the hidden layer. -/
theorem hidden_block (c : Dev nD) (t : Fin cfg1.N) (p : Fin 200) (q : Fin 512) :
    k1_pay1 (F := Ideal) (iblk1 V c 0 t) (iblk1 V c 1 t) (iblk1 V c 2 t) (ix2 p q) = hiddenArr V c (ix2 (row t p) q) := by
  refine (congrFun (Payload.pay_hidden (iblk1 V c 0 t) (iblk1 V c 1 t) (iblk1 V c 2 t)) (ix2 p q)).trans ?_
  rw [iblk_sup, iblk_b1]
  exact relu_row _ _ p (row t p) (fun q' => addRow_row _ _ _ p (row t p)
    (fun q'' => prod_row _ _ _ p (row t p) (fun k => iblk_adj V c t p k) q'') q') q

/-- What point `t` writes back to the first result is block `t` of the hidden layer. -/
theorem flushed_hidden (c : Dev nD) (t : Fin cfg1.N) :
    (dat1 V c).flushed 5 t = ((cfg1.win 5).blk t).view.read (Elt Ideal) (hiddenArr V c) := by
  show (cfg1.win 5).cut (grid1.coords t) ((dat1 V c).after 5 t) = _
  rw [after1_5]
  unfold out1_5
  rw [View.canon_unit_zero hz]
  simp only [View.ld_unit_zero (S := S200x10000) hz, View.ld_unit_zero (S := S10000x512) hz, View.ld_unit_zero (S := S1x512) hz]
  funext y
  obtain ⟨p, q, rfl⟩ : ∃ (p : Fin 200) (q : Fin 512), y = ix2 p q := ⟨y 0, y 1, eq_ix2 y⟩
  rw [View.read_apply, emb_hidden]
  exact hidden_block V c t p q

/-- What point `t` writes back to the second result is block `t` of the class probabilities. -/
theorem flushed_out (c : Dev nD) (t : Fin cfg1.N) :
    (dat1 V c).flushed 6 t = ((cfg1.win 6).blk t).view.read (Elt Ideal) (outArr V c) := by
  show (cfg1.win 6).cut (grid1.coords t) ((dat1 V c).after 6 t) = _
  rw [after1_6]
  unfold out1_6
  rw [View.canon_unit_zero hz]
  simp only [View.ld_unit_zero (S := S200x10000) hz, View.ld_unit_zero (S := S10000x512) hz, View.ld_unit_zero (S := S1x512) hz,
    View.ld_unit_zero (S := S256x512) hz, View.ld_unit_zero (S := S1x256) hz]
  funext y
  obtain ⟨p, q, rfl⟩ : ∃ (p : Fin 200) (q : Fin 256), y = ix2 p q := ⟨y 0, y 1, eq_ix2 y⟩
  refine (congrFun (Payload.pay_out (iblk1 V c 0 t) (iblk1 V c 1 t) (iblk1 V c 2 t) (iblk1 V c 3 t) (iblk1 V c 4 t)) (ix2 p q)).trans ?_
  rw [View.read_apply, emb_out, iblk_w2, iblk_b2]
  exact softmax_row _ _ p (row t p) (fun q' => addRow_row _ _ _ p (row t p)
    (fun q'' => prodT_row _ _ _ p (row t p) (fun k => hidden_block V c t p k) q'') q') q

/-- Every entry of the first result lies in the block of the point its row's two hundred belongs to. -/
theorem cover_hidden (i : S10000x512.Idx) :
    ∃ t : Fin cfg1.N, (cfg1.win 5).flush t = true ∧ i ∈ ((cfg1.win 5).blk t).view.set := by
  have hi0 : (i 0).val < 10000 := (i 0).isLt
  have hi1 : (i 1).val < 512 := (i 1).isLt
  have hN : cfg1.N = 50 := N_1
  let t : Fin cfg1.N := ⟨(i 0).val / 200, by omega⟩
  have htv : t.val = (i 0).val / 200 := rfl
  refine ⟨t, flush1_5 t, ?_⟩
  show i ∈ ((View.whole main_v3_0).slice (win1_5.rect t)).set
  rw [View.set_slice_whole, Rect.mem_set_unit]
  obtain ⟨-, -, e2, e3, e4, e5⟩ := idx_rows t
  intro a
  match a with
  | ⟨0, _⟩ =>
    show win1_5.index t (0 : Fin 2) * 200 ≤ (i 0).val ∧ (i 0).val < win1_5.index t (0 : Fin 2) * 200 + 200
    omega
  | ⟨1, _⟩ =>
    show win1_5.index t (1 : Fin 2) * 512 ≤ (i 1).val ∧ (i 1).val < win1_5.index t (1 : Fin 2) * 512 + 512
    omega

/-- Every entry of the second result lies in the block of the point its row's two hundred belongs to. -/
theorem cover_out (i : S10000x256.Idx) :
    ∃ t : Fin cfg1.N, (cfg1.win 6).flush t = true ∧ i ∈ ((cfg1.win 6).blk t).view.set := by
  have hi0 : (i 0).val < 10000 := (i 0).isLt
  have hi1 : (i 1).val < 256 := (i 1).isLt
  have hN : cfg1.N = 50 := N_1
  let t : Fin cfg1.N := ⟨(i 0).val / 200, by omega⟩
  have htv : t.val = (i 0).val / 200 := rfl
  refine ⟨t, flush1_6 t, ?_⟩
  show i ∈ ((View.whole main_v3_1).slice (win1_6.rect t)).set
  rw [View.set_slice_whole, Rect.mem_set_unit]
  obtain ⟨-, -, e2, e3, e4, e5⟩ := idx_rows t
  intro a
  match a with
  | ⟨0, _⟩ =>
    show win1_6.index t (0 : Fin 2) * 200 ≤ (i 0).val ∧ (i 0).val < win1_6.index t (0 : Fin 2) * 200 + 200
    omega
  | ⟨1, _⟩ =>
    show win1_6.index t (1 : Fin 2) * 256 ≤ (i 1).val ∧ (i 1).val < win1_6.index t (1 : Fin 2) * 256 + 256
    omega

/-- So the region leaves the hidden layer in its first result array -/
theorem final_hidden (c : Dev nD) : (dat1 V c).arrAt 5 cfg1.N = hiddenArr V c :=
  (dat1 V c).arrAt_eq_of_cover 5 (hiddenArr V c) (fun t _ => flushed_hidden V c t) cover_hidden

/-- and the class probabilities in its second. -/
theorem final_out (c : Dev nD) : (dat1 V c).arrAt 6 cfg1.N = outArr V c :=
  (dat1 V c).arrAt_eq_of_cover 6 (outArr V c) (fun t _ => flushed_out V c t) cover_out

end Cert.KernelIdeal.Region1

end
-- ==== Proof.Region0.lean ====
/-
  The first region: what it leaves in the support array.

  The grid has ten points; point `t` reads rows `1000 t … 1000 t + 999` of `x` and all of `w1`, and writes back the same
  rows of the result. Row `p` of the block written at point `t` is therefore row `1000 t + p` of `x · w1`, and the ten
  blocks tile the array, so after the region the array holds `x · w1` — for whatever contents the region is entered at.
-/
import proofs.«101675_g65816078844311_cont_sun_m_909_2_alg».proof.Proof.Gen.KernelIdeal.Frame
import proofs.«101675_g65816078844311_cont_sun_m_909_2_alg».proof.Proof.Payload
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a point: the row blocks move with the point, `w1` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N (t : Fin cfg0.N) : t.val < 10 := by
  have h := t.isLt
  have e : cfg0.N = 10 := N_0
  omega

/-- The array row that row `p` of point `t`'s block is. -/
def row (t : Fin cfg0.N) (p : Fin 1000) : Fin 10000 := ⟨t.val * 1000 + p.val, by have := lt_N t; have := p.isLt; omega⟩

/-- The arrays the region reads, as it finds them, and what it computes of them. -/
abbrev xArr (c : Dev nD) : Mat 10000 512 := V c main_arg0
abbrev w1Arr (c : Dev nD) : Mat 512 512 := V c main_arg2
abbrev supportArr (c : Dev nD) : Mat 10000 512 := prod (xArr V c) (w1Arr V c)

/-- Point `t`'s block of `x`, by rows. -/
theorem iblk_x (c : Dev nD) (t : Fin cfg0.N) (p : Fin 1000) (k : Fin 512) :
    (iblk0 V c 0 t : Mat 1000 512) (ix2 p k) = xArr V c (ix2 (row t p) k) := by
  unfold iblk0
  rw [View.read_apply]
  show V c main_arg0 _ = V c main_arg0 _
  refine congrArg (V c main_arg0) (funext fun a => Fin.ext ?_)
  obtain ⟨e0, e1, -⟩ := idx_facts t
  match a with
  | ⟨0, _⟩ => show win0_0.index t (0 : Fin 2) * 1000 + 1 * p.val = t.val * 1000 + p.val; omega
  | ⟨1, _⟩ => show win0_0.index t (1 : Fin 2) * 512 + 1 * k.val = k.val; omega

/-- Every point's block of `w1` is all of it. -/
theorem iblk_w (c : Dev nD) (t : Fin cfg0.N) : (iblk0 V c 1 t : Mat 512 512) = w1Arr V c := by
  funext y
  obtain ⟨k, q, rfl⟩ : ∃ (k : Fin 512) (q : Fin 512), y = ix2 k q := ⟨y 0, y 1, eq_ix2 y⟩
  unfold iblk0
  rw [View.read_apply]
  show V c main_arg2 _ = V c main_arg2 _
  refine congrArg (V c main_arg2) (funext fun a => Fin.ext ?_)
  obtain ⟨-, -, e2, e3, -⟩ := idx_facts t
  match a with
  | ⟨0, _⟩ => show win0_1.index t (0 : Fin 2) * 512 + 1 * k.val = k.val; omega
  | ⟨1, _⟩ => show win0_1.index t (1 : Fin 2) * 512 + 1 * q.val = q.val; omega

/-- Where entry `(p, q)` of point `t`'s output block lies in the array. -/
theorem emb_out (t : Fin cfg0.N) (p : Fin 1000) (q : Fin 512) :
    ((cfg0.win 2).blk t).view.emb (ix2 p q) = (ix2 (row t p) q : S10000x512.Idx) := by
  funext a
  apply Fin.ext
  obtain ⟨-, -, -, -, e4, e5⟩ := idx_facts t
  match a with
  | ⟨0, _⟩ => show win0_2.index t (0 : Fin 2) * 1000 + 1 * p.val = t.val * 1000 + p.val; omega
  | ⟨1, _⟩ => show win0_2.index t (1 : Fin 2) * 512 + 1 * q.val = q.val; omega

/-- What point `t` writes back is block `t` of `x · w1`. -/
theorem flushed_support (c : Dev nD) (t : Fin cfg0.N) :
    (dat0 V c).flushed 2 t = ((cfg0.win 2).blk t).view.read (Elt Ideal) (supportArr V c) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  funext y
  obtain ⟨p, q, rfl⟩ : ∃ (p : Fin 1000) (q : Fin 512), y = ix2 p q := ⟨y 0, y 1, eq_ix2 y⟩
  refine (congrFun (Payload.pay_support (iblk0 V c 0 t) (iblk0 V c 1 t)) (ix2 p q)).trans ?_
  rw [View.read_apply, emb_out, iblk_w]
  exact prod_row _ _ _ p (row t p) (fun k => iblk_x V c t p k) q

/-- Every entry of the array lies in the block of the point its row's thousand belongs to. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 10 := N_0
  let t : Fin cfg0.N := ⟨(i 0).val / 1000, by omega⟩
  have htv : t.val = (i 0).val / 1000 := rfl
  refine ⟨t, flush0_2 t, ?_⟩
  show i ∈ ((View.whole main_v0).slice (win0_2.rect t)).set
  rw [View.set_slice_whole, Rect.mem_set_unit]
  obtain ⟨-, -, -, -, e4, e5⟩ := idx_facts t
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 512 ≤ (i 1).val ∧ (i 1).val < win0_2.index t (1 : Fin 2) * 512 + 512
    omega

/-- So the region leaves `x · w1` in the support array. -/
theorem final_support (c : Dev nD) : (dat0 V c).arrAt 2 cfg0.N = supportArr V c :=
  (dat0 V c).arrAt_eq_of_cover 2 (supportArr V c) (fun t _ => flushed_support V c t) cover

end Cert.KernelIdeal.Region0

end
-- ==== Proof.Boundary.lean ====
/-
  What the second region is entered at, in terms of the launch memory.

  Between the launch and the second region lie the first region, which writes only the support array, and two reshapes,
  which write the two one-row bias arrays. So the second region finds `adj` and `w2` as launched, the support array at
  `x · w1` of the launched `x` and `w1`, and each bias row at its launched bias vector laid out as one row.
-/
import proofs.«101675_g65816078844311_cont_sun_m_909_2_alg».proof.Proof.Region0
import Idealize.ShloMosaic.Lib.StableHlo.Run
import Idealize.ShloMosaic.Lib.ValueLayout

set_option maxRecDepth 16384

noncomputable section

open scoped BigOperators

namespace Cert.KernelIdeal.Boundary

open Cert.KernelIdeal Cert.KernelIdeal.Gen Idealize.ShloMosaic Idealize.ShloMosaic.TcCoe Idealize.ShloMosaic.ValueIdx Idealize.SL.Sem Cert.Gcn
open Idealize.ShloMosaic.StableHlo
open Idealize.ShloMosaic.Pipeline (Dat)

variable (m : (ℓ : Loc nD τ sig) → Buf (Elt Ideal) ℓ) (ρ : Dev nD → PrngReg)

/-- `adj` is as launched: the first region and the reshapes do not write it. -/
theorem entry_adj (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c : Thread nD τ).loc main_arg1) := rfl

/-- `w2` is as launched. -/
theorem entry_w2 (c : Dev nD) : V2 m ρ c main_arg4 = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := W1_of_ne m ρ c main_arg4 (by decide)
    _ = m ((c : Thread nD τ).loc main_arg4) := rfl

/-- The support array holds `x · w1` of the launched `x` and `w1`: what the first region left, untouched by the reshapes. -/
theorem entry_support (c : Dev nD) :
    (V2 m ρ c main_v0 : Mat 10000 512)
      = prod (m ((c : Thread nD τ).loc main_arg0) : Mat 10000 512) (m ((c : Thread nD τ).loc main_arg2) : Mat 512 512) :=
  calc W2 m ρ c (Proc.devRef .tc main_v0)
    _ = W1 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 2 cfg0.N := W1_arr m ρ c 2
    _ = Region0.supportArr (V0 m ρ) c := Region0.final_support (V0 m ρ) c
    _ = _ := rfl

/-- A vector laid out as one row, read back as a vector, is the vector. -/
theorem rowOf_cast {b : ℕ} (v : Row b) (h : (⟨1, ![b]⟩ : Shape).ShapeCasts ⟨2, ![1, b]⟩) :
    rowOf (shapeCast ⟨2, ![1, b]⟩ v h) = v := by
  funext j
  obtain ⟨q, rfl⟩ : ∃ q : Fin b, j = ix1 q := ⟨j 0, eq_ix1 j⟩
  rw [rowOf_ix1]
  exact shapeCast_a_1a_apply v h 0 q

/-- The first bias row is the launched `b1` laid out as one row. -/
theorem entry_b1 (c : Dev nD) : rowOf (V2 m ρ c main_v1 : Mat 1 512) = (m ((c : Thread nD τ).loc main_arg3) : Row 512) := by
  have e : (V2 m ρ c main_v1 : Mat 1 512) = shapeCast S1x512 (m ((c : Thread nD τ).loc main_arg3) : Row 512) shapeCasts_S512_S1x512 := by
    show StableHlo.after hostOps1 (W1 m ρ c) (Proc.devRef .tc main_v1) = _
    after_results
    rw [W1_of_ne m ρ c main_arg3 (by decide)]
    rfl
  rw [e]
  exact rowOf_cast _ _

/-- The second bias row is the launched `b2` laid out as one row. -/
theorem entry_b2 (c : Dev nD) : rowOf (V2 m ρ c main_v2 : Mat 1 256) = (m ((c : Thread nD τ).loc main_arg5) : Row 256) := by
  have e : (V2 m ρ c main_v2 : Mat 1 256) = shapeCast S1x256 (m ((c : Thread nD τ).loc main_arg5) : Row 256) shapeCasts_S256_S1x256 := by
    show StableHlo.after hostOps1 (W1 m ρ c) (Proc.devRef .tc main_v2) = _
    after_results
    rw [W1_of_ne m ρ c main_arg5 (by decide)]
    rfl
  rw [e]
  exact rowOf_cast _ _

end Cert.KernelIdeal.Boundary

end
-- ==== Proof.KernelValue.lean ====
/-
  The kernel program's run, with its two results as the specification's terms of the launch memory.

  After the second region its first result array holds what that region leaves there — the hidden layer of the arrays
  the region was entered at — and those are `adj` and `w2` as launched, the support array at `x · w1`, and the two bias
  rows at the launched bias vectors. So the results are `hidden x adj w1 b1` and `classify` of it with `w2`, `b2`.
-/
import proofs.«101675_g65816078844311_cont_sun_m_909_2_alg».proof.Proof.KernelIdealRun
import proofs.«101675_g65816078844311_cont_sun_m_909_2_alg».proof.Proof.Region1
import proofs.«101675_g65816078844311_cont_sun_m_909_2_alg».proof.Proof.Boundary

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx Idealize.SL.Sem Cert.Gcn
open Idealize.ShloMosaic.Pipeline (Dat)

variable (m : (ℓ : Loc nD τ sig) → Buf (Elt Ideal) ℓ) (ρ : Dev nD → PrngReg)

/-- The hidden layer of the launched arrays. -/
abbrev hiddenOf (c : Dev nD) : Mat 10000 512 :=
  hidden (m ((c : Thread nD τ).loc main_arg0) : Mat 10000 512) (m ((c : Thread nD τ).loc main_arg1) : Mat 10000 10000)
    (m ((c : Thread nD τ).loc main_arg2) : Mat 512 512) (m ((c : Thread nD τ).loc main_arg3) : Row 512)

/-- The class probabilities of the launched arrays. -/
abbrev outOf (c : Dev nD) : Mat 10000 256 :=
  classify (hiddenOf m c) (m ((c : Thread nD τ).loc main_arg4) : Mat 256 512) (m ((c : Thread nD τ).loc main_arg5) : Row 256)

/-- What the second region finds gives the hidden layer of the launched arrays. -/
theorem hiddenArr_eq (c : Dev nD) : Region1.hiddenArr (V2 m ρ) c = hiddenOf m c := by
  show relu (addRow (prod (V2 m ρ c main_arg1 : Mat 10000 10000) (V2 m ρ c main_v0 : Mat 10000 512)) (rowOf (V2 m ρ c main_v1 : Mat 1 512))) = _
  rw [Boundary.entry_adj m ρ c, Boundary.entry_support m ρ c, Boundary.entry_b1 m ρ c]
  rfl

theorem outArr_eq (c : Dev nD) : Region1.outArr (V2 m ρ) c = outOf m c := by
  show softmax (addRow (prodT (Region1.hiddenArr (V2 m ρ) c) (V2 m ρ c main_arg4 : Mat 256 512)) (rowOf (V2 m ρ c main_v2 : Mat 1 256))) = _
  rw [hiddenArr_eq m ρ c, Boundary.entry_w2 m ρ c, Boundary.entry_b2 m ρ c]
  rfl

theorem result_hidden (c : Dev nD) : V3 m ρ c main_v3_0 = hiddenOf m c :=
  calc W3 m ρ c (Proc.devRef .tc main_v3_0)
    _ = (dat1 (V2 m ρ) c).arrAt 5 cfg1.N := W3_arr m ρ c 5
    _ = Region1.hiddenArr (V2 m ρ) c := Region1.final_hidden (V2 m ρ) c
    _ = hiddenOf m c := hiddenArr_eq m ρ c

theorem result_out (c : Dev nD) : V3 m ρ c main_v3_1 = outOf m c :=
  calc W3 m ρ c (Proc.devRef .tc main_v3_1)
    _ = (dat1 (V2 m ρ) c).arrAt 6 cfg1.N := W3_arr m ρ c 6
    _ = Region1.outArr (V2 m ρ) c := Region1.final_out (V2 m ρ) c
    _ = outOf m c := outArr_eq m ρ c

/-- The run, read: both results at the specification's terms of the launch memory, the arguments unchanged. -/
theorem run : θ_run defs (onTc (τ := τ) (main (F := Ideal))) ⟨m, fun _ => 0, ρ⟩ (fun r => ∀ c : Dev nD,
      r.2.mem ((c.tc : Thread nD τ).loc main_v3_0) = hiddenOf m c
      ∧ r.2.mem ((c.tc : Thread nD τ).loc main_v3_1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_hidden m ρ c), (h c).2.1.trans (result_out m ρ c), (h c).2.2⟩)
    (Named.run_named m ρ)

end Cert.KernelIdeal.KernelValue

end
-- ==== Proof.RefValue.lean ====
/-
  The reference's two results are the layer and the row softmax of the specification.

  Its host operations are read one at a time: two products (`x · w1`, then `adj ·` that), the bias broadcast through a
  one-row array and added, the maximum with a broadcast zero (the positive part); a transpose and a product (the
  product with `w2` transposed), the second bias; then the softmax as jax writes it — the row maximum from minus
  infinity, taken once more against minus infinity (which changes nothing), kept as a column and broadcast back, the
  exponential of the difference, the row sum from zero kept as a column and broadcast back, and the quotient.
-/
import proofs.«101675_g65816078844311_cont_sun_m_909_2_alg».proof.Proof.Gen.ReferenceIdeal.Read
import proofs.«101675_g65816078844311_cont_sun_m_909_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Gcn

variable (x0 : (⟨S10000x512, .f32⟩ : BufTy).Contents (Elt Ideal)) (x1 : (⟨S10000x10000, .f32⟩ : BufTy).Contents (Elt Ideal))
  (x2 : (⟨S512x512, .f32⟩ : BufTy).Contents (Elt Ideal)) (x3 : (⟨S512, .f32⟩ : BufTy).Contents (Elt Ideal))
  (x4 : (⟨S256x512, .f32⟩ : BufTy).Contents (Elt Ideal)) (x5 : (⟨S256, .f32⟩ : BufTy).Contents (Elt Ideal))

/-! ## The operand indices of each stage, by coordinates -/

theorem lidx0 (p : Fin 10000) (q k : Fin 512) : lidx_main_v0 (ix2 p q) k = ix2 p k :=
  funext fun a => by match a with | ⟨0, _⟩ => rfl | ⟨1, _⟩ => rfl
theorem ridx0 (p : Fin 10000) (q k : Fin 512) : ridx_main_v0 (ix2 p q) k = ix2 k q :=
  funext fun a => by match a with | ⟨0, _⟩ => rfl | ⟨1, _⟩ => rfl
theorem lidx1 (p : Fin 10000) (q : Fin 512) (k : Fin 10000) : lidx_main_v1 (ix2 p q) k = ix2 p k :=
  funext fun a => by match a with | ⟨0, _⟩ => rfl | ⟨1, _⟩ => rfl
theorem ridx1 (p : Fin 10000) (q : Fin 512) (k : Fin 10000) : ridx_main_v1 (ix2 p q) k = ix2 k q :=
  funext fun a => by match a with | ⟨0, _⟩ => rfl | ⟨1, _⟩ => rfl
theorem idx23 (p : Fin 10000) (q : Fin 512) : idx_main_v2 (idx_main_v3 (ix2 p q)) = ix1 q :=
  funext fun a => by match a with | ⟨0, _⟩ => rfl
theorem idx6 (k : Fin 512) (q : Fin 256) : idx_main_v6 (ix2 k q) = ix2 q k :=
  funext fun a => by match a with | ⟨0, _⟩ => rfl | ⟨1, _⟩ => rfl
theorem lidx7 (p : Fin 10000) (q : Fin 256) (k : Fin 512) : lidx_main_v7 (ix2 p q) k = ix2 p k :=
  funext fun a => by match a with | ⟨0, _⟩ => rfl | ⟨1, _⟩ => rfl
theorem ridx7 (p : Fin 10000) (q : Fin 256) (k : Fin 512) : ridx_main_v7 (ix2 p q) k = ix2 k q :=
  funext fun a => by match a with | ⟨0, _⟩ => rfl | ⟨1, _⟩ => rfl
theorem idx89 (p : Fin 10000) (q : Fin 256) : idx_main_v8 (idx_main_v9 (ix2 p q)) = ix1 q :=
  funext fun a => by match a with | ⟨0, _⟩ => rfl
theorem idx1415 (p : Fin 10000) (q : Fin 256) : idx_main_v14 (idx_main_v15 (ix2 p q)) = ix1 p :=
  funext fun a => by match a with | ⟨0, _⟩ => rfl
theorem idx18 (p : Fin 10000) (k : Fin 256) : idx_main_v18 (ix1 p) k = ix2 p k :=
  funext fun a => by match a with | ⟨0, _⟩ => rfl | ⟨1, _⟩ => rfl
theorem idx1920 (p : Fin 10000) (q : Fin 256) : idx_main_v19 (idx_main_v20 (ix2 p q)) = ix1 p :=
  funext fun a => by match a with | ⟨0, _⟩ => rfl

/-! ## The hidden layer -/

/-- `x · w1`. -/
theorem support_eq : val_main_v0 (F := Ideal) x0 x2 = prod x0 x2 := by
  funext i
  obtain ⟨p, q, rfl⟩ : ∃ (p : Fin 10000) (q : Fin 512), i = ix2 p q := ⟨i 0, i 1, eq_ix2 i⟩
  rw [val_main_v0_apply]
  show _ = ∑ k : Fin 512, x0 (ix2 p k) * x2 (ix2 k q)
  refine Finset.sum_congr rfl fun k _ => ?_
  rw [lidx0, ridx0]

/-- `adj · (x · w1)`. -/
theorem propagate_eq : val_main_v1 (F := Ideal) x0 x1 x2 = prod x1 (prod x0 x2) := by
  funext i
  obtain ⟨p, q, rfl⟩ : ∃ (p : Fin 10000) (q : Fin 512), i = ix2 p q := ⟨i 0, i 1, eq_ix2 i⟩
  rw [val_main_v1_apply, support_eq]
  show _ = ∑ k : Fin 10000, x1 (ix2 p k) * prod x0 x2 (ix2 k q)
  refine Finset.sum_congr rfl fun k _ => ?_
  rw [lidx1, ridx1]

/-- The reference's first result is the hidden layer. -/
theorem hidden_eq : val_main_v5 (F := Ideal) x0 x1 x2 x3 = hidden x0 x1 x2 x3 := by
  funext i
  obtain ⟨p, q, rfl⟩ : ∃ (p : Fin 10000) (q : Fin 512), i = ix2 p q := ⟨i 0, i 1, eq_ix2 i⟩
  rw [val_main_v5_apply, val_main_v4_apply, val_main_v3_apply, val_main_v2_apply, idx23, val_main_call0_v0_apply,
    val_main_call0_cst_apply, propagate_eq]
  rfl

/-! ## The logits -/

theorem logits_eq (g : (⟨S10000x512, .f32⟩ : BufTy).Contents (Elt Ideal)) (hg : val_main_v5 (F := Ideal) x0 x1 x2 x3 = g) :
    val_main_v10 (F := Ideal) x0 x1 x2 x3 x4 x5 = addRow (prodT g x4) x5 := by
  funext i
  obtain ⟨p, q, rfl⟩ : ∃ (p : Fin 10000) (q : Fin 256), i = ix2 p q := ⟨i 0, i 1, eq_ix2 i⟩
  rw [val_main_v10_apply, val_main_v9_apply, val_main_v8_apply, idx89, val_main_v7_apply, hg]
  show (∑ k : Fin 512, g (lidx_main_v7 (ix2 p q) k) * val_main_v6 (F := Ideal) x4 (ridx_main_v7 (ix2 p q) k)) + x5 (ix1 q)
    = (∑ k : Fin 512, g (ix2 p k) * x4 (ix2 q k)) + x5 (ix1 q)
  refine congrArg (· + x5 (ix1 q)) (Finset.sum_congr rfl fun k _ => ?_)
  rw [lidx7, ridx7, val_main_v6_apply, idx6]

/-! ## The softmax -/

/-- Minus infinity's word denotes the least extended real. -/
theorem negInf_eq_bot : Ideal.ofBits .f32 0xFF800000#32 = (⊥ : EReal) := by simp [Ideal.ofBits, Ideal.ieee]

/-- The row maximum, taken once more against minus infinity, is the row maximum of the logits. -/
theorem rowMax_eq (p : Fin 10000) :
    val_main_v13 (F := Ideal) x0 x1 x2 x3 x4 x5 (ix1 p) = rowMax (val_main_v10 (F := Ideal) x0 x1 x2 x3 x4 x5) p := by
  rw [val_main_v13_apply, val_main_v12_apply, val_main_cst_0_apply]
  have h11 : val_main_v11 (F := Ideal) x0 x1 x2 x3 x4 x5 (ix1 p) = rowMax (val_main_v10 (F := Ideal) x0 x1 x2 x3 x4 x5) p := by
    unfold val_main_v11
    refine (Host.reduce_eq_fold_single FloatOps.maximumf _ _ reducesTo_S10000x256_S10000_d1 (by decide) h_S_ (ix1 p)).trans ?_
    show Finset.fold max (Ideal.ofBits .f32 0xFF800000#32) _ _ = Finset.fold max (Ideal.ofBits .f32 0xFF800000#32) _ _
    refine congrArg (fun f => Finset.fold max (Ideal.ofBits .f32 0xFF800000#32) f (Finset.univ : Finset (Fin 256))) (funext fun k => ?_)
    exact congrArg (val_main_v10 (F := Ideal) x0 x1 x2 x3 x4 x5) (funext fun c => Fin.ext (by
      match c with
      | ⟨0, _⟩ => rfl
      | ⟨1, _⟩ => rfl))
  rw [h11]
  show max (Ideal.ofBits .f32 0xFF800000#32) _ = _
  rw [negInf_eq_bot]
  exact max_eq_right bot_le

/-- The exponentials of the logits less their row's maximum. -/
theorem exp_eq (p : Fin 10000) (q : Fin 256) :
    val_main_v17 (F := Ideal) x0 x1 x2 x3 x4 x5 (ix2 p q)
      = Ideal.exp (val_main_v10 (F := Ideal) x0 x1 x2 x3 x4 x5 (ix2 p q) - rowMax (val_main_v10 (F := Ideal) x0 x1 x2 x3 x4 x5) p) := by
  rw [val_main_v17_apply, val_main_v16_apply, val_main_v15_apply, val_main_v14_apply, idx1415, rowMax_eq]
  rfl

/-- The last stage is the softmax of the logits. -/
theorem softmax_eq : val_main_v21 (F := Ideal) x0 x1 x2 x3 x4 x5 = softmax (val_main_v10 (F := Ideal) x0 x1 x2 x3 x4 x5) := by
  funext i
  obtain ⟨p, q, rfl⟩ : ∃ (p : Fin 10000) (q : Fin 256), i = ix2 p q := ⟨i 0, i 1, eq_ix2 i⟩
  rw [val_main_v21_apply, val_main_v20_apply, val_main_v19_apply, idx1920, val_main_v18_apply, val_main_cst_1_apply, exp_eq]
  show Ideal.div _ (Ideal.ofBits .f32 0x00000000#32 + ∑ k : Fin 256, val_main_v17 (F := Ideal) x0 x1 x2 x3 x4 x5 (idx_main_v18 (ix1 p) k)) = _
  rw [Ideal.ofBits_zero_f32, zero_add]
  refine congrArg (Ideal.div _) (Finset.sum_congr rfl fun k _ => ?_)
  rw [idx18, exp_eq]

/-- The reference's second result is the class probabilities of its first. -/
theorem out_eq : val_main_v21 (F := Ideal) x0 x1 x2 x3 x4 x5 = classify (hidden x0 x1 x2 x3) x4 x5 := by
  rw [softmax_eq, logits_eq x0 x1 x2 x3 x4 x5 _ (hidden_eq x0 x1 x2 x3)]
  rfl

end Cert.ReferenceIdeal.RefValue

end
-- ==== Proof.lean ====
/-
  A graph-convolution layer with a softmax classifier, `hidden = relu (adj · (x · w1) + b1)` and
  `out = softmax (hidden · w2ᵀ + b2)`, as two tiled kernels against the plain array program.

  The first kernel computes `x · w1` in ten blocks of a thousand rows. The second, in fifty blocks of two hundred rows
  of `adj`, multiplies the block by the whole of `x · w1`, adds the bias and takes the positive part (the first result's
  rows), then multiplies by `w2` transposed, adds the second bias and takes the softmax of every row (the second
  result's rows). On the extended reals a change of float format is the identity, a product into a zero accumulator is
  the plain finite sum, and every operation of the second kernel acts on one row at a time; so the tiled computation
  gives, row for row, the same two arrays as the reference's whole-array operations in the same order — no algebraic
  law beyond reading both sides entry by entry, and the inputs' finiteness is not used. The one difference in spelling,
  the reference's extra maximum of each row maximum with minus infinity, changes nothing.

  The frames of the two kernel programs are the generated ones, the reference's is its generated run with the results
  dropped, and the idealization rewrote no operation.
-/
import proofs.«101675_g65816078844311_cont_sun_m_909_2_alg».proof.Defs
import proofs.«101675_g65816078844311_cont_sun_m_909_2_alg».proof.Proof.Gen.Kernel
import proofs.«101675_g65816078844311_cont_sun_m_909_2_alg».proof.Proof.Gen.Kernel.Skeleton
import proofs.«101675_g65816078844311_cont_sun_m_909_2_alg».proof.Proof.Gen.Kernel.Launch
import proofs.«101675_g65816078844311_cont_sun_m_909_2_alg».proof.Proof.Gen.Kernel.Points
import proofs.«101675_g65816078844311_cont_sun_m_909_2_alg».proof.Proof.Gen.Kernel.Frame
import proofs.«101675_g65816078844311_cont_sun_m_909_2_alg».proof.Proof.Gen.KernelIdeal
import proofs.«101675_g65816078844311_cont_sun_m_909_2_alg».proof.Proof.Gen.KernelIdeal.Skeleton
import proofs.«101675_g65816078844311_cont_sun_m_909_2_alg».proof.Proof.Gen.KernelIdeal.Launch
import proofs.«101675_g65816078844311_cont_sun_m_909_2_alg».proof.Proof.Gen.KernelIdeal.Points
import proofs.«101675_g65816078844311_cont_sun_m_909_2_alg».proof.Proof.Gen.KernelIdeal.Frame
import proofs.«101675_g65816078844311_cont_sun_m_909_2_alg».proof.Proof.Gen.ReferenceIdeal
import proofs.«101675_g65816078844311_cont_sun_m_909_2_alg».proof.Proof.Gen.Pre_finite_inputs
import proofs.«101675_g65816078844311_cont_sun_m_909_2_alg».proof.Proof.Gen.ReferenceIdeal.Run
import proofs.«101675_g65816078844311_cont_sun_m_909_2_alg».proof.Proof.Gen.ReferenceIdeal.Read
import proofs.«101675_g65816078844311_cont_sun_m_909_2_alg».proof.Proof.KernelValue
import proofs.«101675_g65816078844311_cont_sun_m_909_2_alg».proof.Proof.RefValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the hidden layer and the class probabilities of the arguments they agree on. -/
theorem algebraic : Cert.algebraic_KernelIdeal_ReferenceIdeal := by
  intro m ρ m' ρ' _ hagree
  refine ⟨fun c => Cert.KernelIdeal.KernelValue.hiddenOf m c, fun c => Cert.KernelIdeal.KernelValue.outOf m c,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.RefValue.hidden_eq,
      (hagree c).1, (hagree c).2.1, (hagree c).2.2.1, (hagree c).2.2.2.1]
  · rw [Cert.ReferenceIdeal.Read.val_main_v21_eq, Cert.ReferenceIdeal.RefValue.out_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
